-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x7 : Shape := ⟨2, ![64, 7]⟩
abbrev S7 : Shape := ⟨1, ![7]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S64x7 .f32) (main_arg6 : FVec F S64x7 .f32) (main_arg7 : FVec F S7 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x7 .f32 := Host.absf main_arg5
  let main_cst_6 : FVec F S_ .f32 := constant S_ .f32 0x7F800000#32
  let main_v20 : FVec F S64x7 .f32 := broadcastInDim S64x7 ![] bcast_S_S64x7 main_cst_6
  let main_v21 : IVec S64x7 1 := cmpf .olt main_v19 main_v20
  let main_c_7 : IVec S_ 1 := constantI S_ 1 1#1
  let main_v22 : IVec S_ 1 := (fun x v => Host.reduce IntOp.andi x v reducesTo_S64x7_S_d0_1 h_S_) main_v21 main_c_7
  let main_v23 : IVec S_ 1 := andi main_v18 main_v22
  let main_v24 : FVec F S64x7 .f32 := Host.absf main_arg6
  let main_cst_8 : FVec F S_ .f32 := constant S_ .f32 0x7F800000#32
  let main_v25 : FVec F S64x7 .f32 := broadcastInDim S64x7 ![] bcast_S_S64x7 main_cst_8
  let main_v26 : IVec S64x7 1 := cmpf .olt main_v24 main_v25
  let main_c_9 : IVec S_ 1 := constantI S_ 1 1#1
  let main_v27 : IVec S_ 1 := (fun x v => Host.reduce IntOp.andi x v reducesTo_S64x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x7 .f32) (main_arg6 : FVec F S64x7 .f32) (main_arg7 : FVec F S7 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x7 : Shape := ⟨2, ![64, 7]⟩
abbrev S7 : Shape := ⟨1, ![7]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x7 : Shape := ⟨2, ![1, 7]⟩
abbrev S100000x7 : Shape := ⟨2, ![100000, 7]⟩
abbrev S5000x7 : Shape := ⟨2, ![5000, 7]⟩
abbrev S5000 : Shape := ⟨1, ![5000]⟩
abbrev S5000x1 : Shape := ⟨2, ![5000, 1]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x7, .f32⟩
  | .hbm, ⟨6, _⟩ => ⟨S64x7, .f32⟩
  | .hbm, ⟨7, _⟩ => ⟨S7, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x7, .f32⟩
  | .hbm, ⟨65, _⟩ => ⟨S100000x7, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x7, .f32⟩
  | .local _ .vmem, ⟨14, _⟩ => ⟨S64x7, .f32⟩
  | .local _ .vmem, ⟨15, _⟩ => ⟨S1x7, .f32⟩
  | .local _ .vmem, ⟨16, _⟩ => ⟨S5000x7, .f32⟩
  | .local _ .vmem, ⟨17, _⟩ => ⟨S5000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x7 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S7_S1x7 : S7.ShapeCasts S1x7
  shapeCasts_S5000x64_S5000x64 : S5000x64.ShapeCasts S5000x64
  inb_S64x7_S64x7_0_0 : ∀ a, (![0, 0] : Fin 2 → Nat) a + S64x7.size a ≤ S64x7.size a
  h_S64x7 : 0 < S64x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  broadcasts_S5000x1_S5000x7 : S5000x1.Broadcasts S5000x7
  inb_S5000x7_S5000x7_0_0 : ∀ a, (![0, 0] : Fin 2 → Nat) a + S5000x7.size a ≤ S5000x7.size a
  h_S5000x7 : 0 < S5000x7.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x7_S5000x7_1_0_0_1_n_n_wf : DotDims.WF S5000x64 S64x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x7.size a ≤ S64x7.size a
  hwx1_2 : ∀ i : grid1.Coords, EltTy.bits .f32 = 32 ∨ (Rect.block (s := S64x7) S64x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x7.size a ≤ S64x7.size a
  hwx1_3 : ∀ i : grid1.Coords, EltTy.bits .f32 = 32 ∨ (Rect.block (s := S64x7) S64x7.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x7.size a ≤ S1x7.size a
  hwx1_4 : ∀ i : grid1.Coords, EltTy.bits .f32 = 32 ∨ (Rect.block (s := S1x7) S1x7.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x7.size a ≤ S100000x7.size a
  hwx1_5 : ∀ i : grid1.Coords, EltTy.bits .f32 = 32 ∨ (Rect.block (s := S100000x7) S5000x7.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x7_S5000x7_1_0_0_1_n_n : DotDims S5000x64 S64x7 S5000x7 where
  lhsContracting := [1]
  rhsContracting := [0]
  lhsNonContracting := [0]
  rhsNonContracting := [1]
  lhsBatch := []
  rhsBatch := []
  wf := dot_S5000x64_S64x7_S5000x7_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x7.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x7 : Shape := ⟨2, ![64, 7]⟩
abbrev S7 : Shape := ⟨1, ![7]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x7 : Shape := ⟨2, ![100000, 7]⟩
abbrev S1x7 : Shape := ⟨2, ![1, 7]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x7, .f32⟩
  | .hbm, ⟨6, _⟩ => ⟨S64x7, .f32⟩
  | .hbm, ⟨7, _⟩ => ⟨S7, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x7, .f32⟩
  | .hbm, ⟨72, _⟩ => ⟨S100000x7, .f32⟩
  | .hbm, ⟨73, _⟩ => ⟨S100000x7, .f32⟩
  | .hbm, ⟨74, _⟩ => ⟨S1x7, .f32⟩
  | .hbm, ⟨75, _⟩ => ⟨S100000x7, .f32⟩
  | .hbm, ⟨76, _⟩ => ⟨S100000x7, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x7, .f32⟩
  | .hbm, ⟨84, _⟩ => ⟨S100000x7, .f32⟩
  | .hbm, ⟨85, _⟩ => ⟨S100000x7, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x7, .f32⟩
  | .hbm, ⟨91, _⟩ => ⟨S100000x7, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000x1_S100000x7_0_1 : S100000x1.BroadcastsInDim S100000x7 (![0, 1] : Fin 2 → Fin S100000x7.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x7_S100000x7_1_0_0_1_n_n_wf : DotDims.WF S100000x64 S64x7 S100000x7 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf

class Facts : Prop extends Facts₀ where

variable [Facts]
-- ==== Proof.Stretches.lean ====
/-
  The kernel program's two stretches of host operations, met with the reference's stages.

  Before its first pallas_call the kernel program computes, from the node features and the edge list, the mean of
  the source rows over the edges of each destination (a gather of rows, a scatter-add of them, a scatter-add of
  ones, a division by the count clamped below at one), and reshapes the first bias vector into a row. Between the
  two calls it does the same with the hidden features the first call left, and reshapes the second bias. The
  reference performs the very same operations, in the same order, on its own copies of the arrays. So each array a
  pallas_call finds at its entry is the reference's stage of the same name in the computation — by unfolding both,
  never by opening a gather or a scatter: the first aggregate is the reference's stage `main_v22`, the source and
  destination lists its stages `main_v1` and `main_v3`, and, once the hidden features are known to be its stage
  `main_v29`, the second aggregate is its stage `main_v48`. A reshaped bias holds the bias vector in its one row.
  Everything here holds for any valuation of the buffers the stretch starts from, and at any float family.
-/
import proofs.«152571_j41248865911074_1_alg».proof.Proof.Gen.KernelIdeal.Frame
import proofs.«152571_j41248865911074_1_alg».proof.Proof.RefRead
import Idealize.ShloMosaic.Lib.StableHlo.Run
import Idealize.ShloMosaic.Lib.ValueIdx
import Idealize.ShloMosaic.Lib.ValueLayout

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP (val_main_v1 val_main_v3 val_main_v22 val_main_v29 val_main_v48)

variable {F : FTy → Type} [FloatOps F] (W : Valuation τ sig (Elt F))

/-! ## The first stretch: what the first pallas_call finds -/

set_option maxHeartbeats 4000000 in
/-- The aggregate the first call reads is the reference's first aggregate of the same features and edges. -/
theorem first_agg :
    StableHlo.after hostOps0 W (Proc.devRef .tc main_v22)
      = val_main_v22 (F := F) (W (Proc.devRef .tc main_arg0)) (W (Proc.devRef .tc main_arg1)) := by
  simp only [hostOps0]
  after_results_simp
  rfl

/-- The source list (row 0 of the edge list, flattened) is the reference's. -/
theorem first_src :
    StableHlo.after hostOps0 W (Proc.devRef .tc main_v1) = val_main_v1 (F := F) (W (Proc.devRef .tc main_arg1)) := by
  simp only [hostOps0]
  after_results
  rfl

/-- The destination list (row 1 of the edge list, flattened) is the reference's. -/
theorem first_dst :
    StableHlo.after hostOps0 W (Proc.devRef .tc main_v3) = val_main_v3 (F := F) (W (Proc.devRef .tc main_arg1)) := by
  simp only [hostOps0]
  after_results
  rfl

/-- The reshaped first bias holds the bias vector in its one row. -/
theorem first_bias (j : Fin 64) :
    (StableHlo.after hostOps0 W (Proc.devRef .tc main_v23) : S1x64.Idx → Elt F .f32) (ix2 0 j)
      = (W (Proc.devRef .tc main_arg4) : S64.Idx → Elt F .f32) (ix1 j) := by
  simp only [hostOps0]
  after_results
  exact shapeCast_a_1a_apply _ _ 0 j

/-- The first stretch writes none of the arrays the first call reads directly, nor those the second reads. -/
theorem first_keep_arg0 : StableHlo.after hostOps0 W (Proc.devRef .tc main_arg0) = W (Proc.devRef .tc main_arg0) := by
  simp only [hostOps0]
  after_results
theorem first_keep_arg2 : StableHlo.after hostOps0 W (Proc.devRef .tc main_arg2) = W (Proc.devRef .tc main_arg2) := by
  simp only [hostOps0]
  after_results
theorem first_keep_arg3 : StableHlo.after hostOps0 W (Proc.devRef .tc main_arg3) = W (Proc.devRef .tc main_arg3) := by
  simp only [hostOps0]
  after_results
theorem first_keep_arg5 : StableHlo.after hostOps0 W (Proc.devRef .tc main_arg5) = W (Proc.devRef .tc main_arg5) := by
  simp only [hostOps0]
  after_results
theorem first_keep_arg6 : StableHlo.after hostOps0 W (Proc.devRef .tc main_arg6) = W (Proc.devRef .tc main_arg6) := by
  simp only [hostOps0]
  after_results
theorem first_keep_arg7 : StableHlo.after hostOps0 W (Proc.devRef .tc main_arg7) = W (Proc.devRef .tc main_arg7) := by
  simp only [hostOps0]
  after_results

/-! ## The second stretch: what the second pallas_call finds -/

set_option maxHeartbeats 4000000 in
/-- Once the hidden features the stretch starts from are the reference's hidden features, and the two edge lists the
    reference's, the aggregate the second call reads is the reference's second aggregate. -/
theorem second_agg (x0 : (⟨Cert.ReferenceIdeal.S100000x128, .f32⟩ : BufTy).Contents (Elt F))
    (x1 : (⟨Cert.ReferenceIdeal.S2x1600000, .i32⟩ : BufTy).Contents (Elt F))
    (x2 x3 : (⟨Cert.ReferenceIdeal.S128x64, .f32⟩ : BufTy).Contents (Elt F))
    (x4 : (⟨Cert.ReferenceIdeal.S64, .f32⟩ : BufTy).Contents (Elt F))
    (hh : W (Proc.devRef .tc main_v24) = val_main_v29 (F := F) x0 x1 x2 x3 x4)
    (hs : W (Proc.devRef .tc main_v1) = val_main_v1 (F := F) x1)
    (hd : W (Proc.devRef .tc main_v3) = val_main_v3 (F := F) x1) :
    StableHlo.after hostOps1 W (Proc.devRef .tc main_v43) = val_main_v48 (F := F) x0 x1 x2 x3 x4 := by
  simp only [hostOps1]
  after_results_simp
  rw [hh, hs, hd]
  rfl

/-- The reshaped second bias holds the bias vector in its one row. -/
theorem second_bias (j : Fin 7) :
    (StableHlo.after hostOps1 W (Proc.devRef .tc main_v44) : S1x7.Idx → Elt F .f32) (ix2 0 j)
      = (W (Proc.devRef .tc main_arg7) : S7.Idx → Elt F .f32) (ix1 j) := by
  simp only [hostOps1]
  after_results
  exact shapeCast_a_1a_apply _ _ 0 j

/-- The second stretch writes neither the hidden features nor the second layer's weights. -/
theorem second_keep_hidden : StableHlo.after hostOps1 W (Proc.devRef .tc main_v24) = W (Proc.devRef .tc main_v24) := by
  simp only [hostOps1]
  after_results
theorem second_keep_arg5 : StableHlo.after hostOps1 W (Proc.devRef .tc main_arg5) = W (Proc.devRef .tc main_arg5) := by
  simp only [hostOps1]
  after_results
theorem second_keep_arg6 : StableHlo.after hostOps1 W (Proc.devRef .tc main_arg6) = W (Proc.devRef .tc main_arg6) := by
  simp only [hostOps1]
  after_results
theorem second_keep_arg7 : StableHlo.after hostOps1 W (Proc.devRef .tc main_arg7) = W (Proc.devRef .tc main_arg7) := by
  simp only [hostOps1]
  after_results

end Cert.KernelIdeal.Stretches

end
-- ==== Proof.Spec.lean ====
/-
  What the two dense layers of the two-layer SAGE network compute, index by index, on the extended reals.

  A layer takes the mean-aggregated neighbour features `agg` and the nodes' own features `x` (both N × K), two
  weight matrices `wl`, `wr` (K × M) and a bias row `b` (1 × M), and forms, at row r and column j,
      (∑ k, agg[r,k] · wl[k,j]  +  ∑ k, x[r,k] · wr[k,j])  +  b[0,j].
  Layer one (K = 128, M = 64) then takes the maximum with zero; layer two (K = 64, M = 7) takes the row-wise
  log-softmax: with m[r] the maximum of row r (a fold of `max` from −∞) and s = z − m,
      out[r,j] = s[r,j] − log (∑ j', exp s[r,j']).
  The grouping of the three summands and the order of the subtractions are the ones both programs use, so no
  law of the extended reals beyond the definitions is needed to meet them. The zero and −∞ are kept as the
  bit patterns both programs print; they are never evaluated.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- Node features, 100000 nodes by 128. -/
abbrev Nodes128 : Shape := ⟨2, ![100000, 128]⟩
/-- Hidden features, 100000 nodes by 64. -/
abbrev Nodes64 : Shape := ⟨2, ![100000, 64]⟩
/-- Class scores, 100000 nodes by 7. -/
abbrev Nodes7 : Shape := ⟨2, ![100000, 7]⟩
abbrev W128x64 : Shape := ⟨2, ![128, 64]⟩
abbrev W64x7 : Shape := ⟨2, ![64, 7]⟩
abbrev Row64 : Shape := ⟨2, ![1, 64]⟩
abbrev Row7 : Shape := ⟨2, ![1, 7]⟩

/-- Layer one before its activation: at (r, j), the aggregate's row r against column j of `wl`, plus the
    features' row r against column j of `wr`, plus the bias at j. -/
def affine1 (agg x : Nodes128.Idx → EReal) (wl wr : W128x64.Idx → EReal) (b : Row64.Idx → EReal) :
    Nodes64.Idx → EReal :=
  fun i => (∑ k : Fin 128, agg (ix2 (i 0) k) * wl (ix2 k (i 1)) + ∑ k : Fin 128, x (ix2 (i 0) k) * wr (ix2 k (i 1)))
    + b (ix2 0 (i 1))

/-- Layer one: the affine part, then the maximum with zero. -/
def hidden (agg x : Nodes128.Idx → EReal) (wl wr : W128x64.Idx → EReal) (b : Row64.Idx → EReal) :
    Nodes64.Idx → EReal :=
  fun i => max (affine1 agg x wl wr b i) (Ideal.ofBits .f32 0x00000000#32)

/-- Layer two before the log-softmax. -/
def affine2 (agg h : Nodes64.Idx → EReal) (wl wr : W64x7.Idx → EReal) (b : Row7.Idx → EReal) :
    Nodes7.Idx → EReal :=
  fun i => (∑ k : Fin 64, agg (ix2 (i 0) k) * wl (ix2 k (i 1)) + ∑ k : Fin 64, h (ix2 (i 0) k) * wr (ix2 k (i 1)))
    + b (ix2 0 (i 1))

/-- The maximum of row r of a 100000 × 7 array: the fold of `max` from −∞ over the seven columns. -/
def rowMax (z : Nodes7.Idx → EReal) (r : Fin 100000) : EReal :=
  (Finset.univ : Finset (Fin 7)).fold max (Ideal.ofBits .f32 0xFF800000#32) (fun j => z (ix2 r j))

/-- The row-wise log-softmax in its shifted form: s = z − rowmax, then s − log ∑ exp s. -/
def logSoftmax (z : Nodes7.Idx → EReal) : Nodes7.Idx → EReal :=
  fun i => (z i - rowMax z (i 0)) - Ideal.log (∑ j : Fin 7, Ideal.exp (z (ix2 (i 0) j) - rowMax z (i 0)))

/-- Layer two: the affine part, then the row-wise log-softmax. -/
def scores (agg h : Nodes64.Idx → EReal) (wl wr : W64x7.Idx → EReal) (b : Row7.Idx → EReal) :
    Nodes7.Idx → EReal :=
  logSoftmax (affine2 agg h wl wr b)

/-- −∞ is neutral for `max` on the extended reals: taking the maximum of −∞ with a value changes nothing. -/
theorem max_negInf_left (a : EReal) : max (Ideal.ofBits .f32 0xFF800000#32) a = a := by
  have h : Ideal.ofBits .f32 0xFF800000#32 = (⊥ : EReal) := by simp [Ideal.ofBits, Ideal.ieee]
  rw [h]; exact max_bot_left a

end Cert.Sage

end
-- ==== Proof.Region0.lean ====
/-
  Region 0 of the kernel program as ONE function of the arrays it finds.

  The first pallas_call walks the 100000 rows in 20 blocks of 5000. At block t it loads rows 5000·t … 5000·t+4999 of
  the aggregate and of the node features (128 columns each), the two 128 × 64 weight matrices and the 1 × 64 bias row
  whole, and stores into the same rows of the output
      max ((agg_blk · wl + x_blk · wr) + bias, 0).
  A row of a block product is the corresponding row of the whole product, so every block is the restriction of
  `Sage.hidden` of the whole arrays, and the twenty blocks tile the output: the array the region leaves is `Sage.hidden`.
-/
import proofs.«152571_j41248865911074_1_alg».proof.Proof.Gen.KernelIdeal.Frame
import proofs.«152571_j41248865911074_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

variable (V : (c : Dev nD) → (b : Ref sig .tc) → Buf (Elt Ideal) ((c : Thread nD τ).loc b))

/-! ## The block product at an index

The body's two products contract axis 1 of a 5000 × 128 block against axis 0 of a 128 × 64 matrix. Read at (p, q) the
left operand's index is (p, k) and the right's is (k, q), k the one contraction coordinate. -/

theorem lhs_blockdot_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blockdot_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_blockdot_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blockdot_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block product into the zero accumulator, at (p, q): row p of the left block against column q of the right. -/
theorem blockdot_apply {φ₁ φ₂ : FTy} (l : FVec Ideal S5000x128 φ₁) (r : FVec Ideal S128x64 φ₂) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  show FloatOps.matmul dot_S5000x128_S128x64_S5000x64_1_0_0_1_n_n none l r (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [el, er]

/-- The bias row spread over the 5000 rows of a block, at (p, q): the row's entry q. -/
theorem biasrows_apply (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  refine broadcastTo_apply b broadcasts_S1x64_S5000x64 (ix2 p q) (ix2 0 q) fun a => ?_
  match a with
  | ⟨0, _⟩ => rfl
  | ⟨1, _⟩ => rfl

/-- THE BODY'S ARITHMETIC AT AN INDEX of the block: row p of the aggregate's block against column q of `wl`, plus row p of the
    features' block against column q of `wr`, plus the bias at q, and the maximum of that with zero. -/
theorem pay_apply (a x : Vec Ideal S5000x128 .f32) (wl wr : Vec Ideal S128x64 .f32) (b : Vec Ideal S1x64 .f32) (p : Fin 5000) (q : Fin 64) :
    k0_pay1 (F := Ideal) a x wl wr b (ix2 p q)
      = max ((∑ k : Fin 128, a (ix2 p k) * wl (ix2 k q) + ∑ k : Fin 128, x (ix2 p k) * wr (ix2 k q)) + b (ix2 0 q))
          (Ideal.ofBits .f32 0x00000000#32) := by
  unfold k0_pay1
  rw [maximumf_apply, addf_apply, addf_apply, blockdot_apply, blockdot_apply, biasrows_apply, shapeCast_self]
  rfl

/-! ## The blocks' places in their arrays

At grid point t the aggregate's, the features' and the output's blocks are at block index (t, 0); the two weight matrices
and the bias row are at block index (0, 0) at every point. -/

theorem hz : (![0, 0] : Fin 2 → Nat) = fun _ => 0 := funext fun a => by fin_cases a <;> rfl

/-- The index maps, decided over the twenty points: the two row-blocked inputs move with the output on axis 0 and
    stay at 0 on axis 1; the whole-array inputs stay at (0, 0); the output's block index is (t, 0). -/
theorem index_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block 0 … 19 of the output is some point's. -/
theorem index_onto : ∀ q0 : Fin 20, ∃ t : Fin cfg0.N, win0_5.index t = ![q0.val, 0] :=
  (by decide +kernel : ∀ q0 : Fin 20, ∃ t : Fin grid0.N, win0_5.index t = ![q0.val, 0])

/-- The aggregate's block at point t, entry (p, k): row r = 5000·(block row of t) + p of the aggregate, column k. -/
theorem agg_block_apply (c : Dev nD) (t : Fin cfg0.N) (p : Fin 5000) (k : Fin 128) (r : Fin 100000)
    (hr : r.val = win0_5.index t (0 : Fin 2) * 5000 + p.val) :
    iblk0 V c 0 t (ix2 p k) = V c main_v22 (ix2 r k) := by
  obtain ⟨e00, e01, e10, e11, e20, e21, e30, e31, e40, e41, e50, e51⟩ := index_facts t
  show V c main_v22 (((cfg0.win 0).blk t).view.emb (ix2 p k)) = V c main_v22 (ix2 r k)
  refine congrArg (V c main_v22) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The features' block at point t, entry (p, k): the same row r of the features, column k. -/
theorem x_block_apply (c : Dev nD) (t : Fin cfg0.N) (p : Fin 5000) (k : Fin 128) (r : Fin 100000)
    (hr : r.val = win0_5.index t (0 : Fin 2) * 5000 + p.val) :
    iblk0 V c 1 t (ix2 p k) = V c main_arg0 (ix2 r k) := by
  obtain ⟨e00, e01, e10, e11, e20, e21, e30, e31, e40, e41, e50, e51⟩ := index_facts t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The first weight matrix is loaded whole at every point. -/
theorem wl_block_apply (c : Dev nD) (t : Fin cfg0.N) (k : Fin 128) (q : Fin 64) :
    iblk0 V c 2 t (ix2 k q) = V c main_arg2 (ix2 k q) := by
  obtain ⟨e00, e01, e10, e11, e20, e21, e30, e31, e40, e41, e50, e51⟩ := index_facts t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

/-- So is the second. -/
theorem wr_block_apply (c : Dev nD) (t : Fin cfg0.N) (k : Fin 128) (q : Fin 64) :
    iblk0 V c 3 t (ix2 k q) = V c main_arg3 (ix2 k q) := by
  obtain ⟨e00, e01, e10, e11, e20, e21, e30, e31, e40, e41, e50, e51⟩ := index_facts t
  show V c main_arg3 (((cfg0.win 3).blk t).view.emb (ix2 k q)) = V c main_arg3 (ix2 k q)
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 64 + 1 * q.val = q.val; omega

/-- And so is the bias row. -/
theorem bias_block_apply (c : Dev nD) (t : Fin cfg0.N) (q : Fin 64) :
    iblk0 V c 4 t (ix2 0 q) = V c main_v23 (ix2 0 q) := by
  obtain ⟨e00, e01, e10, e11, e20, e21, e30, e31, e40, e41, e50, e51⟩ := index_facts t
  show V c main_v23 (((cfg0.win 4).blk t).view.emb (ix2 0 q)) = V c main_v23 (ix2 0 q)
  refine congrArg (V c main_v23) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-! ## What a point writes back -/

/-- The body's result at entry (p, q) of point t's block is layer one of the whole arrays at row r = 5000·(block row of t) + p,
    column q: a row of a block product is that row of the whole product. -/
theorem block_entry (c : Dev nD) (t : Fin cfg0.N) (p : Fin 5000) (q : Fin 64) (r : Fin 100000)
    (hr : r.val = win0_5.index t (0 : Fin 2) * 5000 + p.val) :
    k0_pay1 (F := Ideal) (iblk0 V c 0 t) (iblk0 V c 1 t) (iblk0 V c 2 t) (iblk0 V c 3 t) (iblk0 V c 4 t) (ix2 p q)
      = Sage.hidden (V c main_v22) (V c main_arg0) (V c main_arg2) (V c main_arg3) (V c main_v23) (ix2 r q) := by
  refine (pay_apply (iblk0 V c 0 t) (iblk0 V c 1 t) (iblk0 V c 2 t) (iblk0 V c 3 t) (iblk0 V c 4 t) p q).trans ?_
  unfold Sage.hidden Sage.affine1
  refine congrArg₂ max (congrArg₂ (· + ·) (congrArg₂ (· + ·) (Finset.sum_congr rfl fun k _ => ?_) (Finset.sum_congr rfl fun k _ => ?_)) ?_) rfl
  · exact congrArg₂ (· * ·) (agg_block_apply V c t p k r hr) (wl_block_apply V c t k q)
  · exact congrArg₂ (· * ·) (x_block_apply V c t p k r hr) (wr_block_apply V c t k q)
  · exact bias_block_apply V c t q

/-- WHAT POINT t WRITES BACK is block t of layer one of the arrays the region finds. -/
theorem flushed_eq (c : Dev nD) (t : Fin cfg0.N) :
    (dat0 (F := Ideal) V c).flushed 5 t = ((cfg0.win 5).blk t).view.read (Elt Ideal)
      (Sage.hidden (V c main_v22) (V c main_arg0) (V c main_arg2) (V c main_arg3) (V c main_v23)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := index_facts t
  funext j
  have hj0 : (j 0).val < 5000 := (j 0).isLt
  have hj1 : (j 1).val < 64 := (j 1).isLt
  -- the block's index j, as the pair of its two coordinates
  have hx : (win0 5).xinj (grid0.coords t) j = ix2 (⟨(j 0).val, hj0⟩ : Fin 5000) (⟨(j 1).val, hj1⟩ : Fin 64) :=
    funext fun a => by match a with | ⟨0, _⟩ => rfl | ⟨1, _⟩ => rfl
  show k0_pay1 (F := Ideal) (iblk0 V c 0 t) (iblk0 V c 1 t) (iblk0 V c 2 t) (iblk0 V c 3 t) (iblk0 V c 4 t)
        ((win0 5).xinj (grid0.coords t) j)
      = Sage.hidden (V c main_v22) (V c main_arg0) (V c main_arg2) (V c main_arg3) (V c main_v23) (((cfg0.win 5).blk t).view.emb j)
  refine (congrArg (k0_pay1 (F := Ideal) (iblk0 V c 0 t) (iblk0 V c 1 t) (iblk0 V c 2 t) (iblk0 V c 3 t) (iblk0 V c 4 t)) hx).trans ?_
  refine (block_entry V c t ⟨(j 0).val, hj0⟩ ⟨(j 1).val, hj1⟩ ⟨win0_5.index t (0 : Fin 2) * 5000 + (j 0).val, by omega⟩ rfl).trans ?_
  -- the output block's rectangle puts (p, q) at row 5000·(block row) + p, column q
  refine congrArg (Sage.hidden (V c main_v22) (V c main_arg0) (V c main_arg2) (V c main_arg3) (V c main_v23)) (funext fun a => Fin.ext ?_)
  match a with
  | ⟨0, _⟩ => show win0_5.index t (0 : Fin 2) * 5000 + (j 0).val = win0_5.index t (0 : Fin 2) * 5000 + 1 * (j 0).val; omega
  | ⟨1, _⟩ => show (j 1).val = win0_5.index t (1 : Fin 2) * 64 + 1 * (j 1).val; omega

/-! ## The twenty blocks tile the output -/

/-- An index of the output is in point t's block iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Row r of the output is in the block of the point whose block row is r / 5000. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The array region 0 leaves in its output window's buffer (`main_v24`), for ANY contents `V` at its entry: layer one
    of the arrays it reads — the aggregate `main_v22`, the features `main_arg0`, the weights `main_arg2`, `main_arg3`
    and the bias row `main_v23`. -/
theorem arrAt_eq (c : Dev nD) :
    (dat0 (F := Ideal) V c).arrAt 5 cfg0.N
      = Sage.hidden (V c main_v22) (V c main_arg0) (V c main_arg2) (V c main_arg3) (V c main_v23) :=
  (dat0 (F := Ideal) V c).arrAt_eq_of_cover 5 _ (fun t _ => flushed_eq V c t) covered

end Cert.KernelIdeal.Region0

end
-- ==== Proof.Region1.lean ====
/-
  Region 1 of the kernel program as ONE function of the arrays it finds.

  The second pallas_call walks the 100000 rows in 20 blocks of 5000. At block t it loads rows 5000·t … 5000·t+4999 of
  the second aggregate and of the hidden features (64 columns each), the two 64 × 7 weight matrices and the 1 × 7 bias
  row whole, forms z = (agg_blk · wl + h_blk · wr) + bias and stores the row-wise log-softmax of z — the row maximum
  from −∞, s = z − max, s − log ∑ exp s — into the same rows of the output. Every step acts within a row, so every
  block is the restriction of `Sage.scores` of the whole arrays, and the twenty blocks tile the output.
-/
import proofs.«152571_j41248865911074_1_alg».proof.Proof.Gen.KernelIdeal.Frame
import proofs.«152571_j41248865911074_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-! ## The column forms of the two layout operations a kept-axis row reduction meets -/

/-- A length-`a` vector cast to an `a × 1` column reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row-wise log-softmax of seven values -/

/-- The shifted log-softmax of one row `z` of seven values at column `q`: with `m` the fold of `max` from −∞ over the
    row, `(z q − m) − log ∑ⱼ exp (z j − m)`. -/
def lsmRow (z : Fin 7 → EReal) (q : Fin 7) : EReal :=
  (z q - (Finset.univ : Finset (Fin 7)).fold max (Ideal.ofBits .f32 0xFF800000#32) z)
    - Ideal.log (∑ j : Fin 7, Ideal.exp (z j - (Finset.univ : Finset (Fin 7)).fold max (Ideal.ofBits .f32 0xFF800000#32) z))

/-- The specification's layer two at an index is the row-wise log-softmax of its affine part's row. -/
theorem scores_apply (agg h : Sage.Nodes64.Idx → EReal) (wl wr : Sage.W64x7.Idx → EReal) (b : Sage.Row7.Idx → EReal)
    (i : Sage.Nodes7.Idx) :
    Sage.scores agg h wl wr b i = lsmRow (fun j => Sage.affine2 agg h wl wr b (ix2 (i 0) j)) (i 1) := rfl

/-! ## The block's reductions along a row, read at a row -/

/-- The row maximum of a 5000 × 7 block at row `p`: the fold of `max` from −∞ over the seven columns. -/
theorem rowMax_apply (z : FVec Ideal S5000x7 .f32) (hφ : FKind.Formats .f32)
    (hacc : (0xFF800000#32 : BitVec 32) = FKind.maximumf.neutral .f32 hφ) (p : Fin 5000) :
    multiReduction (F := Ideal) .maximumf [1] S5000 z 0xFF800000#32 reduces_S5000x7_S5000 hφ hacc (ix1 p)
      = (Finset.univ : Finset (Fin 7)).fold max (Ideal.ofBits .f32 0xFF800000#32) (fun j => z (ix2 p j)) :=
  (Ideal.multiReduction_maximumf_single z 0xFF800000#32 reduces_S5000x7_S5000 hφ hacc (ix1 p)).trans
    (congrArg (fun f => (Finset.univ : Finset (Fin 7)).fold max (Ideal.ofBits .f32 0xFF800000#32) f)
      (funext fun j => congrArg z (funext fun a => Fin.ext (by match a with | ⟨0, _⟩ => rfl | ⟨1, _⟩ => rfl))))

/-- The row sum of a 5000 × 7 block at row `p`: the sum over the seven columns. -/
theorem rowSum_apply (z : FVec Ideal S5000x7 .f32) (hφ : FKind.Formats .f32)
    (hacc : (0x00000000#32 : BitVec 32) = FKind.add.neutral .f32 hφ) (p : Fin 5000) :
    multiReduction (F := Ideal) .add [1] S5000 z 0x00000000#32 reduces_S5000x7_S5000 hφ hacc (ix1 p)
      = ∑ j : Fin 7, z (ix2 p j) :=
  (Ideal.multiReduction_add_single z 0x00000000#32 reduces_S5000x7_S5000 hφ hacc (ix1 p)).trans
    (Finset.sum_congr rfl fun j _ => congrArg z (funext fun a => Fin.ext (by match a with | ⟨0, _⟩ => rfl | ⟨1, _⟩ => rfl)))

/-! ## The block's products read at an index

The body contracts axis 1 of a 5000 × 64 block with axis 0 of a 64 × 7 matrix. The four lemmas below say, axis by
axis, which operand element the product at `(p, q)` and contraction index `k` reads: `(p, k)` on the left, `(k, q)` on the
right. -/

theorem lhs_blk_0 (i : S5000x7.Idx) (q : dot_S5000x64_S64x7_S5000x7_1_0_0_1_n_n.contr.Idx) :
    (dot_S5000x64_S64x7_S5000x7_1_0_0_1_n_n.lhsIdx i q 0).val = (i 0).val := by
  unfold DotDims.lhsIdx
  rw [dif_neg (show ¬(0 : Fin S5000x64.rank) ∈ dot_S5000x64_S64x7_S5000x7_1_0_0_1_n_n.lhsBatch by decide), dif_pos (show (0 : Fin S5000x64.rank) ∈ dot_S5000x64_S64x7_S5000x7_1_0_0_1_n_n.lhsNonContracting by decide)]
  rfl
theorem lhs_blk_1 (i : S5000x7.Idx) (q : dot_S5000x64_S64x7_S5000x7_1_0_0_1_n_n.contr.Idx) :
    (dot_S5000x64_S64x7_S5000x7_1_0_0_1_n_n.lhsIdx i q 1).val = (q ⟨0, by decide⟩).val :=
  dot_S5000x64_S64x7_S5000x7_1_0_0_1_n_n.lhsIdx_val_of_single rfl i q
theorem rhs_blk_0 (i : S5000x7.Idx) (q : dot_S5000x64_S64x7_S5000x7_1_0_0_1_n_n.contr.Idx) :
    (dot_S5000x64_S64x7_S5000x7_1_0_0_1_n_n.rhsIdx i q 0).val = (q ⟨0, by decide⟩).val :=
  dot_S5000x64_S64x7_S5000x7_1_0_0_1_n_n.rhsIdx_val_of_single rfl i q
theorem rhs_blk_1 (i : S5000x7.Idx) (q : dot_S5000x64_S64x7_S5000x7_1_0_0_1_n_n.contr.Idx) :
    (dot_S5000x64_S64x7_S5000x7_1_0_0_1_n_n.rhsIdx i q 1).val = (i 1).val := by
  unfold DotDims.rhsIdx
  rw [dif_neg (show ¬(1 : Fin S64x7.rank) ∈ dot_S5000x64_S64x7_S5000x7_1_0_0_1_n_n.rhsBatch by decide), dif_pos (show (1 : Fin S64x7.rank) ∈ dot_S5000x64_S64x7_S5000x7_1_0_0_1_n_n.rhsNonContracting by decide)]
  rfl

/-- A block product into the zero accumulator, at `(p, q)`: the sum over the 64 contracted coordinates of the left
    operand at `(p, k)` times the right at `(k, q)`. The narrowing of the operands is the identity on the ideal values. -/
theorem blkMatmul_apply (a : FVec Ideal S5000x64 .f32) (w : FVec Ideal S64x7 .f32) (p : Fin 5000) (q : Fin 7) :
    matmul (F := Ideal) dot_S5000x64_S64x7_S5000x7_1_0_0_1_n_n none
        (truncf .bf16 (shapeCast S5000x64 a shapeCasts_S5000x64_S5000x64) bitsLt_bf16_f32) (truncf .bf16 w bitsLt_bf16_f32)
        (constant (F := Ideal) S5000x7 .f32 0x00000000#32) (ix2 p q)
      = ∑ k : Fin 64, a (ix2 p k) * w (ix2 k q) := by
  rw [shapeCast_self]
  refine (Ideal.matmul_constant_zero_apply dot_S5000x64_S64x7_S5000x7_1_0_0_1_n_n none _ _ (ix2 p q)).trans ?_
  rw [← Equiv.sum_comp (ValueIdx.contrEquiv1 dot_S5000x64_S64x7_S5000x7_1_0_0_1_n_n 64 rfl rfl).symm]
  refine Finset.sum_congr rfl fun k _ => ?_
  have hk := ValueIdx.contrEquiv1_symm_val dot_S5000x64_S64x7_S5000x7_1_0_0_1_n_n 64 rfl rfl k
  have el : dot_S5000x64_S64x7_S5000x7_1_0_0_1_n_n.lhsIdx (ix2 p q) ((ValueIdx.contrEquiv1 dot_S5000x64_S64x7_S5000x7_1_0_0_1_n_n 64 rfl rfl).symm k) = ix2 p k := funext fun ax => Fin.ext (by
    match ax with
    | ⟨0, _⟩ => exact lhs_blk_0 _ _
    | ⟨1, _⟩ => exact (lhs_blk_1 _ _).trans hk)
  have er : dot_S5000x64_S64x7_S5000x7_1_0_0_1_n_n.rhsIdx (ix2 p q) ((ValueIdx.contrEquiv1 dot_S5000x64_S64x7_S5000x7_1_0_0_1_n_n 64 rfl rfl).symm k) = ix2 k q := funext fun ax => Fin.ext (by
    match ax with
    | ⟨0, _⟩ => exact (rhs_blk_0 _ _).trans hk
    | ⟨1, _⟩ => exact rhs_blk_1 _ _)
  rw [truncf_apply, truncf_apply, el, er]

/-! ## The body's value as two stages: the affine part of a block, then the row-wise log-softmax of a block -/

/-- Layer two's affine part on a block of 5000 rows, at row `p` and column `q`: the two products' sums over the 64
    contracted coordinates, plus the bias row at `q`. -/
def zBlk (a x : FVec Ideal S5000x64 .f32) (wl wr : FVec Ideal S64x7 .f32) (b : FVec Ideal S1x7 .f32) (p : Fin 5000) (q : Fin 7) : EReal :=
  (∑ k : Fin 64, a (ix2 p k) * wl (ix2 k q) + ∑ k : Fin 64, x (ix2 p k) * wr (ix2 k q)) + b (ix2 (0 : Fin 1) q)

/-- The affine part as the body forms it: two block products into zero accumulators, added, plus the bias row
    broadcast down the rows. -/
def zT (a x : FVec Ideal S5000x64 .f32) (wl wr : FVec Ideal S64x7 .f32) (b : FVec Ideal S1x7 .f32) : FVec Ideal S5000x7 .f32 :=
  addf
    (addf
      (matmul (F := Ideal) dot_S5000x64_S64x7_S5000x7_1_0_0_1_n_n none
        (truncf .bf16 (shapeCast S5000x64 a shapeCasts_S5000x64_S5000x64) bitsLt_bf16_f32) (truncf .bf16 wl bitsLt_bf16_f32)
        (constant (F := Ideal) S5000x7 .f32 0x00000000#32))
      (matmul (F := Ideal) dot_S5000x64_S64x7_S5000x7_1_0_0_1_n_n none
        (truncf .bf16 (shapeCast S5000x64 x shapeCasts_S5000x64_S5000x64) bitsLt_bf16_f32) (truncf .bf16 wr bitsLt_bf16_f32)
        (constant (F := Ideal) S5000x7 .f32 0x00000000#32)))
    (broadcastTo S5000x7 (shapeCast S1x7 b shapeCasts_S1x7_S1x7) broadcasts_S1x7_S5000x7)

/-- The body's affine part at `(p, q)` is `zBlk` there. -/
theorem zT_apply (a x : FVec Ideal S5000x64 .f32) (wl wr : FVec Ideal S64x7 .f32) (b : FVec Ideal S1x7 .f32) (p : Fin 5000) (q : Fin 7) :
    zT a x wl wr b (ix2 p q) = zBlk a x wl wr b p q := by
  have hb : (broadcastTo S5000x7 (shapeCast S1x7 b shapeCasts_S1x7_S1x7) broadcasts_S1x7_S5000x7 : FVec Ideal S5000x7 .f32) (ix2 p q)
      = b (ix2 (0 : Fin 1) q) :=
    (broadcastTo_1b_ab_apply _ _ p q).trans (congrFun (shapeCast_self b shapeCasts_S1x7_S1x7) _)
  show (_ + _) + _ = _
  rw [blkMatmul_apply a wl p q, blkMatmul_apply x wr p q, hb]
  rfl

/-- A block shifted by its row maxima: each row minus the fold of `max` from −∞ over it. -/
def sT (z : FVec Ideal S5000x7 .f32) : FVec Ideal S5000x7 .f32 :=
  subf z (broadcastTo S5000x7
    (shapeCast S5000x1 (multiReduction (F := Ideal) .maximumf [1] S5000 z 0xFF800000#32 reduces_S5000x7_S5000 (.inl rfl) rfl)
      shapeCasts_S5000_S5000x1) broadcasts_S5000x1_S5000x7)

/-- The row-wise log-softmax of a block as the body forms it: the shifted block minus the logarithm of its rows' sums of
    exponentials, the row reductions kept as columns and broadcast back along the rows. -/
def lsmT (z : FVec Ideal S5000x7 .f32) : FVec Ideal S5000x7 .f32 :=
  subf (sT z) (broadcastTo S5000x7
    (log (shapeCast S5000x1 (multiReduction (F := Ideal) .add [1] S5000 (exp (sT z)) 0x00000000#32 reduces_S5000x7_S5000 (.inl rfl) rfl)
      shapeCasts_S5000_S5000x1)) broadcasts_S5000x1_S5000x7)

/-- The shifted block at `(p, j)`: the entry minus row `p`'s maximum. -/
theorem sT_apply (z : FVec Ideal S5000x7 .f32) (p : Fin 5000) (j : Fin 7) :
    sT z (ix2 p j) = z (ix2 p j) - (Finset.univ : Finset (Fin 7)).fold max (Ideal.ofBits .f32 0xFF800000#32) (fun j => z (ix2 p j)) :=
  congrArg (fun t => z (ix2 p j) - t)
    ((broadcastTo_a1_ab_apply _ broadcasts_S5000x1_S5000x7 p j).trans
      ((shapeCast_a_a1_apply _ shapeCasts_S5000_S5000x1 p 0).trans (rowMax_apply z _ _ p)))

/-- The block's log-softmax at `(p, q)` is the log-softmax of row `p` at `q`. -/
theorem lsmT_apply (z : FVec Ideal S5000x7 .f32) (p : Fin 5000) (q : Fin 7) :
    lsmT z (ix2 p q) = lsmRow (fun j => z (ix2 p j)) q := by
  have hl : (broadcastTo S5000x7
        (log (shapeCast S5000x1 (multiReduction (F := Ideal) .add [1] S5000 (exp (sT z)) 0x00000000#32 reduces_S5000x7_S5000 (.inl rfl) rfl)
          shapeCasts_S5000_S5000x1)) broadcasts_S5000x1_S5000x7 : FVec Ideal S5000x7 .f32) (ix2 p q)
      = Ideal.log (∑ j : Fin 7, Ideal.exp (sT z (ix2 p j))) :=
    (broadcastTo_a1_ab_apply _ broadcasts_S5000x1_S5000x7 p q).trans
      (congrArg Ideal.log ((shapeCast_a_a1_apply _ shapeCasts_S5000_S5000x1 p 0).trans (rowSum_apply (exp (sT z)) _ _ p)))
  refine (congrArg (fun t => sT z (ix2 p q) - t) hl).trans ?_
  simp only [sT_apply]
  rfl

/-- The body's stored value is the log-softmax stage of the affine stage. -/
theorem pay_eq (a x : Vec Ideal S5000x64 .f32) (wl wr : Vec Ideal S64x7 .f32) (b : Vec Ideal S1x7 .f32) :
    k1_pay1 (F := Ideal) a x wl wr b = lsmT (zT a x wl wr b) := rfl

/-- THE BODY'S VALUE AT AN INDEX: at row `p` and column `q` of the block, the log-softmax of row `p` of the affine part. -/
theorem pay_apply (a x : Vec Ideal S5000x64 .f32) (wl wr : Vec Ideal S64x7 .f32) (b : Vec Ideal S1x7 .f32) (p : Fin 5000) (q : Fin 7) :
    k1_pay1 (F := Ideal) a x wl wr b (ix2 p q) = lsmRow (fun j => zBlk a x wl wr b p j) q := by
  rw [pay_eq, lsmT_apply]
  exact congrArg (fun f => lsmRow f q) (funext fun j => zT_apply a x wl wr b p j)

/-- A block's affine part at row `p` is the whole arrays' affine part at row `r`, when row `p` of each row-blocked input
    is row `r` of its array and the weights and the bias row are the arrays'. -/
theorem zBlk_eq_affine2 (A H : Sage.Nodes64.Idx → EReal) (WL WR : Sage.W64x7.Idx → EReal) (B : Sage.Row7.Idx → EReal)
    (a x : FVec Ideal S5000x64 .f32) (wl wr : FVec Ideal S64x7 .f32) (b : FVec Ideal S1x7 .f32) (p : Fin 5000) (r : Fin 100000)
    (h0 : ∀ k : Fin 64, a (ix2 p k) = A (ix2 r k)) (h1 : ∀ k : Fin 64, x (ix2 p k) = H (ix2 r k))
    (h2 : ∀ (k : Fin 64) (j : Fin 7), wl (ix2 k j) = WL (ix2 k j)) (h3 : ∀ (k : Fin 64) (j : Fin 7), wr (ix2 k j) = WR (ix2 k j))
    (h4 : ∀ j : Fin 7, b (ix2 (0 : Fin 1) j) = B (ix2 (0 : Fin 1) j)) (j : Fin 7) :
    zBlk a x wl wr b p j = Sage.affine2 A H WL WR B (ix2 r j) := by
  show (∑ k : Fin 64, a (ix2 p k) * wl (ix2 k j) + ∑ k : Fin 64, x (ix2 p k) * wr (ix2 k j)) + b (ix2 (0 : Fin 1) j)
    = (∑ k : Fin 64, A (ix2 r k) * WL (ix2 k j) + ∑ k : Fin 64, H (ix2 r k) * WR (ix2 k j)) + B (ix2 (0 : Fin 1) j)
  simp only [h0, h1, h2, h3, h4]

variable (V : (c : Dev nD) → (b : Ref sig .tc) → Buf (Elt Ideal) ((c : Thread nD τ).loc b))

/-! ## From blocks to the array -/

theorem hz : (![0, 0] : Fin 2 → Nat) = fun _ => 0 := funext fun a => by fin_cases a <;> rfl

/-- The windows' index maps at each of the grid's twenty points: the two row-blocked inputs move with the output along the rows and
    stay at column block 0; the weights and the bias row stay at block (0, 0); the output's row-block index is below 20
    and its column-block index is 0. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every row block 0 … 19 of the output is SOME point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- WHAT POINT `t` WRITES BACK is block `t` of layer two of the arrays the region finds. -/
theorem flushed_eq (c : Dev nD) (t : Fin cfg1.N) :
    (dat1 (F := Ideal) V c).flushed 5 t = ((cfg1.win 5).blk t).view.read (Elt Ideal)
      (Sage.scores (V c main_v43) (V c main_v24) (V c main_arg5) (V c main_arg6) (V c main_v44)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x7) hz, View.ld_unit_zero (S := S1x7) hz]
  obtain ⟨e00, e01, e10, e11, e20, e21, e30, e31, e40, e41, e50, e51⟩ := idx_facts t
  funext j
  obtain ⟨p, q, rfl⟩ : ∃ (p : Fin 5000) (q : Fin 7), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Sage.scores (V c main_v43) (V c main_v24) (V c main_arg5) (V c main_arg6) (V c main_v44) (((cfg1.win 5).blk t).view.emb (ix2 p q))
  have hq : (((cfg1.win 5).blk t).view.emb (ix2 p q)) 1 = q := Fin.ext (by
    show win1_5.index t (1 : Fin 2) * 7 + 1 * q.val = q.val; omega)
  have h0 : ∀ k : Fin 64, iblk1 V c 0 t (ix2 p k) = V c main_v43 (ix2 ((((cfg1.win 5).blk t).view.emb (ix2 p q)) 0) k) := fun k => by
    show V c main_v43 (((cfg1.win 0).blk t).view.emb (ix2 p k)) = _
    congr 1; funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  have h1 : ∀ k : Fin 64, iblk1 V c 1 t (ix2 p k) = V c main_v24 (ix2 ((((cfg1.win 5).blk t).view.emb (ix2 p q)) 0) k) := fun k => by
    show V c main_v24 (((cfg1.win 1).blk t).view.emb (ix2 p k)) = _
    congr 1; funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * k.val = k.val; omega
  have h2 : ∀ (k : Fin 64) (j : Fin 7), iblk1 V c 2 t (ix2 k j) = V c main_arg5 (ix2 k j) := fun k j => by
    show V c main_arg5 (((cfg1.win 2).blk t).view.emb (ix2 k j)) = _
    congr 1; funext a; apply Fin.ext
    match a with
    | ⟨0, _⟩ => show win1_2.index t (0 : Fin 2) * 64 + 1 * k.val = k.val; omega
    | ⟨1, _⟩ => show win1_2.index t (1 : Fin 2) * 7 + 1 * j.val = j.val; omega
  have h3 : ∀ (k : Fin 64) (j : Fin 7), iblk1 V c 3 t (ix2 k j) = V c main_arg6 (ix2 k j) := fun k j => by
    show V c main_arg6 (((cfg1.win 3).blk t).view.emb (ix2 k j)) = _
    congr 1; funext a; apply Fin.ext
    match a with
    | ⟨0, _⟩ => show win1_3.index t (0 : Fin 2) * 64 + 1 * k.val = k.val; omega
    | ⟨1, _⟩ => show win1_3.index t (1 : Fin 2) * 7 + 1 * j.val = j.val; omega
  have h4 : ∀ j : Fin 7, iblk1 V c 4 t (ix2 (0 : Fin 1) j) = V c main_v44 (ix2 (0 : Fin 1) j) := fun j => by
    show V c main_v44 (((cfg1.win 4).blk t).view.emb (ix2 (0 : Fin 1) j)) = _
    congr 1; funext a; apply Fin.ext
    match a with
    | ⟨0, _⟩ => show win1_4.index t (0 : Fin 2) * 1 + 1 * (0 : Fin 1).val = (0 : Fin 1).val; omega
    | ⟨1, _⟩ => show win1_4.index t (1 : Fin 2) * 7 + 1 * j.val = j.val; omega
  refine (pay_apply _ _ _ _ _ p q).trans (Eq.trans ?_ (scores_apply _ _ _ _ _ _).symm)
  exact congr (congrArg lsmRow (funext fun j => zBlk_eq_affine2 (V c main_v43) (V c main_v24) (V c main_arg5) (V c main_arg6) (V c main_v44)
    (iblk1 V c 0 t) (iblk1 V c 1 t) (iblk1 V c 2 t) (iblk1 V c 3 t) (iblk1 V c 4 t) p _ h0 h1 h2 h3 h4 j)) hq.symm

/-- An index of the output array is in point `t`'s block iff each coordinate is in the block's range on its axis. -/
theorem mem_blk (t : Fin cfg1.N) (i : S100000x7.Idx) :
    i ∈ ((cfg1.win 5).blk t).view.set ↔ ∀ a : Fin 2, win1_5.index t a * S5000x7.size a ≤ (i a).val ∧ (i a).val < win1_5.index t a * S5000x7.size a + S5000x7.size a := by
  show i ∈ ((View.whole main_v45).slice (win1_5.rect t)).set ↔ _
  rw [View.set_slice_whole, Rect.mem_set_unit]
  exact Iff.rfl

/-- THE BLOCKS TILE THE OUTPUT: row `r` lies in the block of the point whose row-block index is `r / 5000`, and every
    point writes its block back. -/
theorem cover (i : S100000x7.Idx) : ∃ t : Fin cfg1.N, (cfg1.win 5).flush t = true ∧ i ∈ ((cfg1.win 5).blk t).view.set := by
  have hi0 : (i 0).val < 100000 := (i 0).isLt
  have hi1 : (i 1).val < 7 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 7 ≤ (i 1).val ∧ (i 1).val < win1_5.index t (1 : Fin 2) * 7 + 7; omega

/-- The array region 1 leaves in its output window's buffer (`main_v45`, the program's result), for ANY contents `V` at
    its entry: layer two of the arrays it reads — the aggregate `main_v43`, the hidden features `main_v24`, the weights
    `main_arg5`, `main_arg6` and the bias row `main_v44`. -/
theorem arrAt_eq (c : Dev nD) :
    (dat1 (F := Ideal) V c).arrAt 5 cfg1.N
      = Sage.scores (V c main_v43) (V c main_v24) (V c main_arg5) (V c main_arg6) (V c main_v44) := by
  exact (dat1 (F := Ideal) V c).arrAt_eq_of_cover 5
    (Sage.scores (V c main_v43) (V c main_v24) (V c main_arg5) (V c main_arg6) (V c main_v44))
    (fun t _ => flushed_eq V c t) cover

end Cert.KernelIdeal.Region1

end
-- ==== Proof.RefDense.lean ====
/-
  The reference's two dense stages read index by index.

  In the reference, the hidden features (stage `main_v29`) are max ((agg1 · W1l + x · W1r) + b1, 0) with agg1 the
  stage `main_v22`, and the result (stage `main_v55`) is the row-wise log-softmax of (agg2 · W2l + h · W2r) + b2
  with agg2 the stage `main_v48` and h the stage `main_v29`. jax's log-softmax takes one more maximum of the row
  maximum with −∞, which changes nothing, and its sum starts from a zero that adds nothing. Both stages are therefore
  `Sage.hidden` and `Sage.scores` of the stages below them, whatever those are.
-/
import proofs.«152571_j41248865911074_1_alg».proof.Proof.RefRead
import proofs.«152571_j41248865911074_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Dense

open Cert.ReferenceIdeal Cert.ReferenceIdeal.ReadP
open Idealize.ShloMosaic Idealize.ShloMosaic.TcCoe Idealize.SL.Sem Idealize.ShloMosaic.ValueIdx
open scoped BigOperators

/-- The reference's hidden features are layer one of its first aggregate, for any bias row `b` that holds the bias
    vector `x4` in its one row. -/
theorem hidden_eq (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (b : Sage.Row64.Idx → EReal) (hb : ∀ j : Fin 64, b (ix2 0 j) = x4 (ix1 j)) :
    val_main_v29 (F := Ideal) x0 x1 x2 x3 x4 = Sage.hidden (val_main_v22 (F := Ideal) x0 x1) x0 x2 x3 b := by
  funext i
  have el : ∀ k : Fin 128, lidx_main_v23 i k = ix2 (i 0) k := fun k =>
    funext fun a => Fin.ext (by match a with | ⟨0, _⟩ => rfl | ⟨1, _⟩ => rfl)
  have er : ∀ k : Fin 128, ridx_main_v23 i k = ix2 k (i 1) := fun k =>
    funext fun a => Fin.ext (by match a with | ⟨0, _⟩ => rfl | ⟨1, _⟩ => rfl)
  have el' : ∀ k : Fin 128, lidx_main_v24 i k = ix2 (i 0) k := fun k =>
    funext fun a => Fin.ext (by match a with | ⟨0, _⟩ => rfl | ⟨1, _⟩ => rfl)
  have er' : ∀ k : Fin 128, ridx_main_v24 i k = ix2 k (i 1) := fun k =>
    funext fun a => Fin.ext (by match a with | ⟨0, _⟩ => rfl | ⟨1, _⟩ => rfl)
  have eb : idx_main_v26 (idx_main_v27 i) = ix1 (i 1) :=
    funext fun a => Fin.ext (by match a with | ⟨0, _⟩ => rfl)
  rw [val_main_v29_apply, val_main_v28_apply, val_main_v25_apply, val_main_v23_apply, val_main_v24_apply,
    val_main_v27_apply, val_main_v26_apply, val_main_call0_v0_apply, val_main_call0_cst_apply]
  simp only [el, er, el', er', eb, Ideal.addf_def, Ideal.maximumf_def, Ideal.ofBits_def]
  unfold Sage.hidden Sage.affine1
  rw [hb (i 1)]
  rfl

/-- Layer two's affine part in the reference: the stage before the log-softmax is `Sage.affine2` of the second
    aggregate and the hidden features, the bias read through `b`. -/
theorem affine2_eq (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x7, .f32⟩ : BufTy).Contents (Elt Ideal)) (x7 : (⟨S7, .f32⟩ : BufTy).Contents (Elt Ideal))
    (b : Sage.Row7.Idx → EReal) (hb : ∀ j : Fin 7, b (ix2 0 j) = x7 (ix1 j)) :
    val_main_v54 (F := Ideal) x0 x1 x2 x3 x4 x5 x6 x7
      = Sage.affine2 (val_main_v48 (F := Ideal) x0 x1 x2 x3 x4) (val_main_v29 (F := Ideal) x0 x1 x2 x3 x4) x5 x6 b := by
  funext i
  have el : ∀ k : Fin 64, lidx_main_v49 i k = ix2 (i 0) k := fun k =>
    funext fun a => Fin.ext (by match a with | ⟨0, _⟩ => rfl | ⟨1, _⟩ => rfl)
  have er : ∀ k : Fin 64, ridx_main_v49 i k = ix2 k (i 1) := fun k =>
    funext fun a => Fin.ext (by match a with | ⟨0, _⟩ => rfl | ⟨1, _⟩ => rfl)
  have el' : ∀ k : Fin 64, lidx_main_v50 i k = ix2 (i 0) k := fun k =>
    funext fun a => Fin.ext (by match a with | ⟨0, _⟩ => rfl | ⟨1, _⟩ => rfl)
  have er' : ∀ k : Fin 64, ridx_main_v50 i k = ix2 k (i 1) := fun k =>
    funext fun a => Fin.ext (by match a with | ⟨0, _⟩ => rfl | ⟨1, _⟩ => rfl)
  have eb : idx_main_v52 (idx_main_v53 i) = ix1 (i 1) :=
    funext fun a => Fin.ext (by match a with | ⟨0, _⟩ => rfl)
  rw [val_main_v54_apply, val_main_v51_apply, val_main_v49_apply, val_main_v50_apply, val_main_v53_apply,
    val_main_v52_apply]
  simp only [el, er, el', er', eb, Ideal.addf_def]
  unfold Sage.affine2
  rw [hb (i 1)]
  rfl

/-- The reference's row maximum: the fold of the maximum over the second axis from −∞ is `Sage.rowMax`, the inserted
    index at row r and column k being (r, k). -/
theorem rowMax_read (z : (⟨S100000x7, .f32⟩ : BufTy).Contents (Elt Ideal)) (j : S100000.Idx) :
    Host.reduce (FloatOps.maximumf (F := Ideal) (φ := .f32)) z (val_main_call1_cst (F := Ideal)) Gen.reducesTo_S100000x7_S100000_d1 Gen.h_S_ j
      = Sage.rowMax z (j 0) := by
  have h : S100000x7.Reduces [1] S100000 := by decide
  rw [Host.reduce_eq_fold_single (FloatOps.maximumf (F := Ideal) (φ := .f32)) z _ Gen.reducesTo_S100000x7_S100000_d1 h Gen.h_S_ j]
  have e : (z ∘ h.lift j) = fun k : Fin 7 => z (ix2 (j 0) k) := funext fun k =>
    congrArg z (funext fun a => Fin.ext (by match a with | ⟨0, _⟩ => rfl | ⟨1, _⟩ => rfl))
  rw [e]
  rfl

/-- The log-softmax's row maximum: one more maximum with −∞ over the fold changes nothing, so at row r it is the
    row maximum of the affine stage `z`. -/
theorem max_read (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x7, .f32⟩ : BufTy).Contents (Elt Ideal)) (x7 : (⟨S7, .f32⟩ : BufTy).Contents (Elt Ideal))
    (z : (⟨S100000x7, .f32⟩ : BufTy).Contents (Elt Ideal)) (hz : val_main_v54 (F := Ideal) x0 x1 x2 x3 x4 x5 x6 x7 = z) (j : S100000.Idx) :
    val_main_call1_v2 (F := Ideal) x0 x1 x2 x3 x4 x5 x6 x7 j = Sage.rowMax z (j 0) := by
  rw [val_main_call1_v2_apply, val_main_call1_v1_apply, val_main_call1_cst_0_apply]
  unfold val_main_call1_v0
  rw [hz, rowMax_read]
  exact Sage.max_negInf_left _

/-- The shifted stage: at (r, c) it is z(r, c) minus row r's maximum. -/
theorem shift_read (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x7, .f32⟩ : BufTy).Contents (Elt Ideal)) (x7 : (⟨S7, .f32⟩ : BufTy).Contents (Elt Ideal))
    (z : (⟨S100000x7, .f32⟩ : BufTy).Contents (Elt Ideal)) (hz : val_main_v54 (F := Ideal) x0 x1 x2 x3 x4 x5 x6 x7 = z) (i : S100000x7.Idx) :
    val_main_call1_v5 (F := Ideal) x0 x1 x2 x3 x4 x5 x6 x7 i = z i - Sage.rowMax z (i 0) := by
  rw [val_main_call1_v5_apply, val_main_call1_v4_apply, val_main_call1_v3_apply,
    max_read x0 x1 x2 x3 x4 x5 x6 x7 z hz, hz]
  rfl

/-- The row sum of exponentials of the shifted stage; its initial zero adds nothing. -/
theorem sum_read (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x7, .f32⟩ : BufTy).Contents (Elt Ideal)) (x7 : (⟨S7, .f32⟩ : BufTy).Contents (Elt Ideal))
    (z : (⟨S100000x7, .f32⟩ : BufTy).Contents (Elt Ideal)) (hz : val_main_v54 (F := Ideal) x0 x1 x2 x3 x4 x5 x6 x7 = z) (j : S100000.Idx) :
    val_main_call1_v7 (F := Ideal) x0 x1 x2 x3 x4 x5 x6 x7 j
      = ∑ k : Fin 7, Ideal.exp (z (ix2 (j 0) k) - Sage.rowMax z (j 0)) := by
  have e7 : ∀ k : Fin 7, idx_main_call1_v7 j k = ix2 (j 0) k := fun k =>
    funext fun a => Fin.ext (by match a with | ⟨0, _⟩ => rfl | ⟨1, _⟩ => rfl)
  have hk : ∀ k : Fin 7, val_main_call1_v6 (F := Ideal) x0 x1 x2 x3 x4 x5 x6 x7 (idx_main_call1_v7 j k)
      = Ideal.exp (z (ix2 (j 0) k) - Sage.rowMax z (j 0)) := by
    intro k
    rw [val_main_call1_v6_apply, shift_read x0 x1 x2 x3 x4 x5 x6 x7 z hz, e7]
    rfl
  rw [val_main_call1_v7_apply, val_main_call1_cst_1_apply]
  simp only [hk, Ideal.ofBits_def, Ideal.ofBits_zero_f32, zero_add]

/-- The whole log-softmax of the affine stage `z`. -/
theorem logSoftmax_read (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x7, .f32⟩ : BufTy).Contents (Elt Ideal)) (x7 : (⟨S7, .f32⟩ : BufTy).Contents (Elt Ideal))
    (z : (⟨S100000x7, .f32⟩ : BufTy).Contents (Elt Ideal)) (hz : val_main_v54 (F := Ideal) x0 x1 x2 x3 x4 x5 x6 x7 = z) :
    val_main_v55 (F := Ideal) x0 x1 x2 x3 x4 x5 x6 x7 = Sage.logSoftmax z := by
  funext i
  rw [val_main_v55_apply, val_main_call1_v10_apply, val_main_call1_v9_apply, val_main_call1_v8_apply,
    sum_read x0 x1 x2 x3 x4 x5 x6 x7 z hz, shift_read x0 x1 x2 x3 x4 x5 x6 x7 z hz]
  rfl

/-- The reference's result is layer two of its second aggregate and its hidden features, for any bias row `b` that
    holds the bias vector `x7` in its one row. -/
theorem scores_eq (x0 : (⟨S100000x128, .f32⟩ : BufTy).Contents (Elt Ideal)) (x1 : (⟨S2x1600000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x7, .f32⟩ : BufTy).Contents (Elt Ideal)) (x7 : (⟨S7, .f32⟩ : BufTy).Contents (Elt Ideal))
    (b : Sage.Row7.Idx → EReal) (hb : ∀ j : Fin 7, b (ix2 0 j) = x7 (ix1 j)) :
    val_main_v55 (F := Ideal) x0 x1 x2 x3 x4 x5 x6 x7
      = Sage.scores (val_main_v48 (F := Ideal) x0 x1 x2 x3 x4) (val_main_v29 (F := Ideal) x0 x1 x2 x3 x4) x5 x6 b := by
  exact logSoftmax_read x0 x1 x2 x3 x4 x5 x6 x7 _ (affine2_eq x0 x1 x2 x3 x4 x5 x6 x7 b hb)

end Cert.ReferenceIdeal.Dense

end
-- ==== Proof.Result.lean ====
/-
  The kernel program's result is the reference's last stage.

  Follow the arrays through the kernel program. The first stretch of host operations leaves the reference's first
  aggregate, and the first pallas_call writes layer one of what it finds: so the hidden features are the reference's
  hidden features (its stage `main_v29`), both being layer one of the same aggregate, features, weights and bias.
  The second stretch then leaves the reference's second aggregate (its stage `main_v48`), computed from those
  hidden features and the same edge lists, and the second pallas_call writes layer two of what it finds: the
  reference's result (its stage `main_v55`), both being layer two of the same aggregate, hidden features, weights
  and bias. No host operation and no pallas_call in between touches an array that a later step reads, other than
  by producing it.
-/
import proofs.«152571_j41248865911074_1_alg».proof.Proof.Stretches
import proofs.«152571_j41248865911074_1_alg».proof.Proof.Region0
import proofs.«152571_j41248865911074_1_alg».proof.Proof.Region1
import proofs.«152571_j41248865911074_1_alg».proof.Proof.RefDense

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Cert.ReferenceIdeal.ReadP (val_main_v1 val_main_v3 val_main_v22 val_main_v29 val_main_v48 val_main_v55)

variable (m : (ℓ : Loc nD τ sig) → Buf (Elt Ideal) ℓ) (ρ : Dev nD → PrngReg)

/-- The edge lists survive the first pallas_call, which does not write them. -/
theorem src_eq (c : Dev nD) :
    W2 m ρ c (Proc.devRef .tc main_v1) = val_main_v1 (F := Ideal) (m ((c : Thread nD τ).loc main_arg1)) :=
  (W2_of_ne m ρ c main_v1 (by decide)).trans (Stretches.first_src (W0 m ρ c))
theorem dst_eq (c : Dev nD) :
    W2 m ρ c (Proc.devRef .tc main_v3) = val_main_v3 (F := Ideal) (m ((c : Thread nD τ).loc main_arg1)) :=
  (W2_of_ne m ρ c main_v3 (by decide)).trans (Stretches.first_dst (W0 m ρ c))

/-- After the first pallas_call the hidden features are the reference's hidden features. -/
theorem hidden_eq (c : Dev nD) :
    W2 m ρ c (Proc.devRef .tc main_v24)
      = val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W2_arr m ρ c 5).trans ?_
  rw [Region0.arrAt_eq (V1 m ρ) c,
    Cert.ReferenceIdeal.Dense.hidden_eq _ _ _ _ _ (V1 m ρ c main_v23) (fun j => Stretches.first_bias (W0 m ρ c) j)]
  have h22 : V1 m ρ c main_v22 = val_main_v22 (F := Ideal) (m ((c : Thread nD τ).loc main_arg0)) (m ((c : Thread nD τ).loc main_arg1)) :=
    Stretches.first_agg (W0 m ρ c)
  have h0 : V1 m ρ c main_arg0 = m ((c : Thread nD τ).loc main_arg0) := Stretches.first_keep_arg0 (W0 m ρ c)
  have h2 : V1 m ρ c main_arg2 = m ((c : Thread nD τ).loc main_arg2) := Stretches.first_keep_arg2 (W0 m ρ c)
  have h3 : V1 m ρ c main_arg3 = m ((c : Thread nD τ).loc main_arg3) := Stretches.first_keep_arg3 (W0 m ρ c)
  rw [h22, h0, h2, h3]

/-- So the aggregate the second pallas_call reads is the reference's second aggregate. -/
theorem second_agg_eq (c : Dev nD) :
    V3 m ρ c main_v43
      = val_main_v48 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) :=
  Stretches.second_agg (W2 m ρ c) _ _ _ _ _ (hidden_eq m ρ c) (src_eq m ρ c) (dst_eq m ρ c)

/-- The array the second pallas_call leaves — the program's result — is the reference's last stage. -/
theorem result_eq (c : Dev nD) :
    W4 m ρ c (Proc.devRef .tc main_v45)
      = val_main_v55 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  have h7 : W2 m ρ c (Proc.devRef .tc main_arg7) = m ((c : Thread nD τ).loc main_arg7) :=
    (W2_of_ne m ρ c main_arg7 (by decide)).trans (Stretches.first_keep_arg7 (W0 m ρ c))
  have hb : ∀ j : Fin 7, (V3 m ρ c main_v44 : S1x7.Idx → Elt Ideal .f32) (ix2 0 j) = m ((c : Thread nD τ).loc main_arg7) (ix1 j) :=
    fun j => (Stretches.second_bias (W2 m ρ c) j).trans (congrFun h7 (ix1 j))
  refine (W4_arr m ρ c 5).trans ?_
  rw [Region1.arrAt_eq (V3 m ρ) c, Cert.ReferenceIdeal.Dense.scores_eq _ _ _ _ _ _ _ _ (V3 m ρ c main_v44) hb]
  have hh : V3 m ρ c main_v24 = val_main_v29 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) :=
    (Stretches.second_keep_hidden (W2 m ρ c)).trans (hidden_eq m ρ c)
  have h5 : V3 m ρ c main_arg5 = m ((c : Thread nD τ).loc main_arg5) :=
    (Stretches.second_keep_arg5 (W2 m ρ c)).trans ((W2_of_ne m ρ c main_arg5 (by decide)).trans (Stretches.first_keep_arg5 (W0 m ρ c)))
  have h6 : V3 m ρ c main_arg6 = m ((c : Thread nD τ).loc main_arg6) :=
    (Stretches.second_keep_arg6 (W2 m ρ c)).trans ((W2_of_ne m ρ c main_arg6 (by decide)).trans (Stretches.first_keep_arg6 (W0 m ρ c)))
  rw [second_agg_eq m ρ c, hh, h5, h6]

end Cert.KernelIdeal.Result

end
-- ==== Proof.lean ====
/-
  A two-layer GraphSAGE network (mean aggregation, relu, log-softmax) as two Pallas kernels against its jnp reference.

  Both programs aggregate in plain host operations: for each destination node the mean of the source rows over its
  incoming edges (a gather, two scatter-adds, a division by the in-degree clamped below at one). They differ only in
  how a layer's dense part is computed. The kernel program gives each layer to a pallas_call that walks the 100000
  rows in twenty blocks of 5000 and computes, per block, (agg · Wl + x · Wr) + b on the matrix unit after narrowing
  the operands to bf16, followed by the maximum with zero (layer one) or the row-wise log-softmax (layer two); the
  reference computes the same two products with whole-array `dot_general`s and calls jax's relu and log_softmax.
  Read at the ideal values a change of float format is the identity, a matrix product into a zero accumulator is the
  plain sum of products, and a row of a block product is a row of the whole product; jax's log_softmax differs from
  the kernel's only by one more maximum with −∞ and a sum started from zero, neither of which changes a value. So
  each pallas_call leaves exactly the reference's stage of the same layer, and, the host operations between them being
  the same on both sides, the two results are one array. No law of the extended reals that needs finiteness is used:
  the precondition is not opened.

  The frames of the two kernel programs are the generated ones; the reference's frame is its generated run with the
  result dropped. The idealization rewrote no operation, so `preserves` is trivial.
-/
import proofs.«152571_j41248865911074_1_alg».proof.Defs
import proofs.«152571_j41248865911074_1_alg».proof.Proof.Gen.Kernel
import proofs.«152571_j41248865911074_1_alg».proof.Proof.Gen.Kernel.Skeleton
import proofs.«152571_j41248865911074_1_alg».proof.Proof.Gen.Kernel.Launch
import proofs.«152571_j41248865911074_1_alg».proof.Proof.Gen.Kernel.Points
import proofs.«152571_j41248865911074_1_alg».proof.Proof.Gen.Kernel.Frame
import proofs.«152571_j41248865911074_1_alg».proof.Proof.Gen.KernelIdeal
import proofs.«152571_j41248865911074_1_alg».proof.Proof.Gen.KernelIdeal.Skeleton
import proofs.«152571_j41248865911074_1_alg».proof.Proof.Gen.KernelIdeal.Launch
import proofs.«152571_j41248865911074_1_alg».proof.Proof.Gen.KernelIdeal.Points
import proofs.«152571_j41248865911074_1_alg».proof.Proof.Gen.KernelIdeal.Frame
import proofs.«152571_j41248865911074_1_alg».proof.Proof.Gen.ReferenceIdeal
import proofs.«152571_j41248865911074_1_alg».proof.Proof.Gen.Pre_finite_inputs
import proofs.«152571_j41248865911074_1_alg».proof.Proof.RefRun
import proofs.«152571_j41248865911074_1_alg».proof.Proof.RefRead
import proofs.«152571_j41248865911074_1_alg».proof.Proof.KernelRun
import proofs.«152571_j41248865911074_1_alg».proof.Proof.Result
import Idealize.ShloMosaic.Adequacy
import Idealize.ShloMosaic.Init

noncomputable section

namespace Cert.Proof

open Idealize.ShloMosaic Idealize.SL.Sem

/-- The word-level kernel program runs and leaves its arguments as launched: the generated frame. -/
theorem frame_kernel [Cert.Kernel.Facts] [Cert.Pre_finite_inputs.Facts] : Cert.frame_Kernel :=
  fun m ρ _ => Cert.Kernel.Gen.frame m ρ

/-- So does the idealized kernel program. -/
theorem frame_kernelIdeal [Cert.KernelIdeal.Facts] [Cert.Pre_finite_inputs.Facts] : Cert.frame_KernelIdeal :=
  fun m ρ _ => Cert.KernelIdeal.Gen.frame m ρ

/-- The reference runs and leaves its arguments as launched: its run, with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.RunP.run (F := Ideal) m ρ)

/-- From memories that agree on the arguments both programs end, and with one result: the kernel program's result
    buffer holds the reference's last stage of the kernel's arguments (`Result.result_eq`), the reference's holds that
    stage of its own arguments, and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.ReadP.val_main_v55 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result_eq m ρ c), (h c).2⟩)
      (Cert.KernelIdeal.RunP.run_result (F := Ideal) m ρ)
  · refine (θ_run Cert.ReferenceIdeal.defs _ _).mono (fun r h c => ⟨(h c).1.trans ?_, (h c).2⟩)
      (Cert.ReferenceIdeal.RunP.run (F := Ideal) m' ρ')
    obtain ⟨e0, e1, e2, e3, e4, e5, e6, e7⟩ := hagree c
    rw [Cert.ReferenceIdeal.ReadP.val_main_v55_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
